-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  reducesTo_S_S_d : S_.ReducesTo [] S_
  bcast_S_S256x8192 : S_.BroadcastsInDim S256x8192 (![] : Fin 0 → Fin S256x8192.rank)
  reducesTo_S256x8192_S_d0_1 : S256x8192.ReducesTo [0, 1] S_

variable [Facts]

def fn_part1 {F : FTy → Type} [FloatOps F] (main_arg4 : FVec F S8192x8192 .f32) (main_arg5 : FVec F S256x8192 .f32) (main_arg6 : FVec F S256x8192 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S8192x8192 .f32 := Host.absf main_arg4
  let main_cst_6 : FVec F S_ .f32 := constant S_ .f32 0x7F800000#32
  let main_v19 : FVec F S8192x8192 .f32 := broadcastInDim S8192x8192 ![] bcast_S_S8192x8192 main_cst_6
  let main_v20 : IVec S8192x8192 1 := cmpf .olt main_v18 main_v19
  let main_c_7 : IVec S_ 1 := constantI S_ 1 1#1
  let main_v21 : IVec S_ 1 := (fun x v => Host.reduce IntOp.andi x v reducesTo_S8192x8192_S_d0_1 h_S_) main_v20 main_c_7
  let main_v22 : IVec S_ 1 := andi main_v17 main_v21
  let main_v23 : FVec F S256x8192 .f32 := Host.absf main_arg5
  let main_cst_8 : FVec F S_ .f32 := constant S_ .f32 0x7F800000#32
  let main_v24 : FVec F S256x8192 .f32 := broadcastInDim S256x8192 ![] bcast_S_S256x8192 main_cst_8
  let main_v25 : IVec S256x8192 1 := cmpf .olt main_v23 main_v24
  let main_c_9 : IVec S_ 1 := constantI S_ 1 1#1
  let main_v26 : IVec S_ 1 := (fun x v => Host.reduce IntOp.andi x v reducesTo_S256x8192_S_d0_1 h_S_) main_v25 main_c_9
  let main_v27 : IVec S_ 1 := andi main_v22 main_v26
  let main_v28 : FVec F S256x8192 .f32 := Host.absf main_arg6
  let main_cst_10 : FVec F S_ .f32 := constant S_ .f32 0x7F800000#32
  let main_v29 : FVec F S256x8192 .f32 := broadcastInDim S256x8192 ![] bcast_S_S256x8192 main_cst_10
  let main_v30 : IVec S256x8192 1 := cmpf .olt main_v28 main_v29
  let main_c_11 : IVec S_ 1 := constantI S_ 1 1#1
  let main_v31 : IVec S_ 1 := (fun x v => Host.reduce IntOp.andi x v reducesTo_S256x8192_S_d0_1 h_S_) main_v30 main_c_11
  let main_v32 : IVec S_ 1 := andi main_v27 main_v31
  main_v32

def fn {F : FTy → Type} [FloatOps F] (main_arg0 : FVec F S8192x8192 .f32) (main_arg1 : FVec F S8192x256 .f32) (main_arg2 : FVec F S8192x256 .f32) (main_arg3 : FVec F S_ .f32) (main_arg4 : FVec F S8192x8192 .f32) (main_arg5 : FVec F S256x8192 .f32) (main_arg6 : FVec F S256x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_v13 main_v15 main_c_5
-- ==== Kernel.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩
abbrev S8192x1 : Shape := ⟨2, ![8192, 1]⟩
abbrev S1024x256 : Shape := ⟨2, ![1024, 256]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 40
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x8192, .f32⟩
  | .hbm, ⟨5, _⟩ => ⟨S256x8192, .f32⟩
  | .hbm, ⟨6, _⟩ => ⟨S256x8192, .f32⟩
  | .hbm, ⟨7, _⟩ => ⟨S8192x256, .f32⟩
  | .hbm, ⟨8, _⟩ => ⟨S8192x256, .f32⟩
  | .hbm, ⟨9, _⟩ => ⟨S8192x256, .bf16⟩
  | .hbm, ⟨10, _⟩ => ⟨S8192x256, .bf16⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S256x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_cst_8 : Ref sig .tc := ⟨.hbm, 33, rfl⟩
abbrev main_v17 : Ref sig .tc := ⟨.hbm, 34, rfl⟩
abbrev main_cst_9 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x8192_S8192x256_1_0 : S256x8192.Transposes [1, 0] S8192x256
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  natLt_1_32 : 1 < 32
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  reducesTo_S8192x256_S_d0_1 : S8192x256.ReducesTo [0, 1] S_
  reducesTo_S256x8192_S_d0_1 : S256x8192.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S_ : Shape := ⟨0, ![]⟩
abbrev S256x8192 : Shape := ⟨2, ![256, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x8192, .f32⟩
  | .hbm, ⟨5, _⟩ => ⟨S256x8192, .f32⟩
  | .hbm, ⟨6, _⟩ => ⟨S256x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S8192x8192, .f32⟩
  | .hbm, ⟨26, _⟩ => ⟨S8192x256, .f32⟩
  | .hbm, ⟨27, _⟩ => ⟨S8192x256, .f32⟩
  | .hbm, ⟨28, _⟩ => ⟨S256x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S256x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S256x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_cst_15 : Ref sig .tc := ⟨.hbm, 62, rfl⟩
abbrev main_v39 : Ref sig .tc := ⟨.hbm, 63, rfl⟩
abbrev main_cst_16 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S256x8192_S8192x256_1_0 : S256x8192.Transposes [1, 0] S8192x256
  transposes_S8192x256_S256x8192_1_0 : S8192x256.Transposes [1, 0] S256x8192
  reducesTo_S8192x8192_S_d0_1 : S8192x8192.ReducesTo [0, 1] S_
  h_S_ : 0 < S_.numel
  reducesTo_S8192x256_S_d0_1 : S8192x256.ReducesTo [0, 1] S_
  reducesTo_S256x8192_S_d0_1 : S256x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The mathematics of the masked low-rank rating error, with no program in sight.

  For rating matrix `r` (8192 × 8192), user factors `a` and item factors `v` (8192 × 256 each) the predicted rating of
  user `u` for item `i` is the dot product `∑ₖ a(u,k)·v(i,k)`; the error of an entry is the squared difference, counted
  only where the rating is observed (`r ≠ 0`). A tiled evaluation sums, for each user row, over 8 column tiles of 1024
  items each, and then sums the row totals; the plain evaluation sums over every (user, item) pair at once. Over the
  extended reals addition is commutative and associative with no side condition, so the two totals agree.
-/
import Idealize.ShloMosaic.PureOps.Ideal
import Idealize.ShloMosaic.Lib.ValueIdx

noncomputable section

open scoped BigOperators

namespace Cert.RatingError

open Idealize.ShloMosaic Idealize.ShloMosaic.ValueIdx

/-- The indicator of an observed rating: `1` where `r ≠ 0`, else `0`. -/
def observed (r : EReal) : EReal := if r = 0 then 0 else 1

/-- The squared error of prediction `p` against rating `r`, counted only where the rating is observed. -/
def sqErr (r p : EReal) : EReal := (r - p) * (r - p) * observed r

/-- The user factors the programs form first: the transposed 256 × 8192 table `P` times the user features `U`, entry by entry. -/
def userFactors (P : (⟨2, ![256, 8192]⟩ : Shape).Idx → EReal) (U : (⟨2, ![8192, 256]⟩ : Shape).Idx → EReal) :
    (⟨2, ![8192, 256]⟩ : Shape).Idx → EReal :=
  fun i => P (ix2 (i 1) (i 0)) * U i

/-- The predicted rating of user `u` for item `i`: the dot product of the user's and the item's factor rows. -/
def predicted (a v : (⟨2, ![8192, 256]⟩ : Shape).Idx → EReal) (u i : Fin 8192) : EReal :=
  ∑ k : Fin 256, a (ix2 u k) * v (ix2 i k)

/-- The masked squared error at entry (u, i). -/
def entryErr (a v : (⟨2, ![8192, 256]⟩ : Shape).Idx → EReal) (r : (⟨2, ![8192, 8192]⟩ : Shape).Idx → EReal)
    (u i : Fin 8192) : EReal :=
  sqErr (r (ix2 u i)) (predicted a v u i)

/-- Item `q` of column tile `s` (tiles of 1024 items). -/
def tileCol (s : Fin 8) (q : Fin 1024) : Fin 8192 := ⟨1024 * s.val + q.val, by have := s.isLt; have := q.isLt; omega⟩

/-- Row totals as the tiled evaluation forms them: for user row `u`, the 8 column tiles' partial sums added up. -/
def rowTotals (a v : (⟨2, ![8192, 256]⟩ : Shape).Idx → EReal) (r : (⟨2, ![8192, 8192]⟩ : Shape).Idx → EReal) :
    (⟨2, ![8192, 1]⟩ : Shape).Idx → EReal :=
  fun j => ∑ s : Fin 8, ∑ q : Fin 1024, entryErr a v r (j 0) (tileCol s q)

/-- The entry errors as one array, as the plain evaluation forms them. -/
def errMatrix (a v : (⟨2, ![8192, 256]⟩ : Shape).Idx → EReal) (r : (⟨2, ![8192, 8192]⟩ : Shape).Idx → EReal) :
    (⟨2, ![8192, 8192]⟩ : Shape).Idx → EReal :=
  fun j => entryErr a v r (j 0) (j 1)

/-- A sum over 8192 items is the sum over 8 tiles of the sums over each tile's 1024 items. -/
theorem sum_tiles {M : Type*} [AddCommMonoid M] (f : Fin 8192 → M) :
    ∑ i : Fin 8192, f i = ∑ s : Fin 8, ∑ q : Fin 1024, f (tileCol s q) := by
  rw [← Fintype.sum_prod_type']
  refine (Equiv.sum_comp (finProdFinEquiv (m := 8) (n := 1024)) f).symm.trans ?_
  refine Finset.sum_congr rfl fun x _ => congrArg f (Fin.ext ?_)
  show x.2.val + 1024 * x.1.val = 1024 * x.1.val + x.2.val
  omega

/-- The sum of the tiled row totals is the sum of all entry errors. -/
theorem sum_rowTotals (a v : (⟨2, ![8192, 256]⟩ : Shape).Idx → EReal) (r : (⟨2, ![8192, 8192]⟩ : Shape).Idx → EReal) :
    ∑ j, rowTotals a v r j = ∑ j, errMatrix a v r j := by
  rw [sum_idx2, sum_idx2]
  refine Finset.sum_congr rfl fun u _ => ?_
  rw [Fin.sum_univ_one]
  show (∑ s : Fin 8, ∑ q : Fin 1024, entryErr a v r u (tileCol s q)) = ∑ i : Fin 8192, entryErr a v r u i
  exact (sum_tiles _).symm

end Cert.RatingError

end
-- ==== Proof.Blocks.lean ====
/-
  Where a grid point's blocks sit in the whole arrays, and what the host lines before the kernel put there.

  The 64 grid points run row tile by row tile: point `t` works on row tile `t / 8` and column tile `t % 8`, each tile
  1024 wide. Its user-factor block is rows `1024·(t/8) …` of the user factors, its item-factor block rows
  `1024·(t%8) …` of the item factors, its rating block that row range against that column range, and its output block
  rows `1024·(t/8) …` of the 8192 × 1 column of row sums. Before the kernel the host forms the user factors as the
  transposed table times the user features and narrows both factor arrays to bf16 — the identity on extended reals.
-/
import proofs.«150954_j68676527063484_1_alg».proof.Proof.Spec
import proofs.«150954_j68676527063484_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.RatingError

variable {F : FTy → Type} [FloatOps F]
variable (m : (ℓ : Loc nD τ sig) → Buf (Elt F) ℓ)

/-- The three staged arrays as the kernel finds them: user factors, item factors, ratings. -/
abbrev aArr (c : Dev nD) : Vec F S8192x256 .bf16 := V m c main_v2
abbrev vArr (c : Dev nD) : Vec F S8192x256 .bf16 := V m c main_v3
abbrev rArr (c : Dev nD) : Vec F S8192x8192 .f32 := V m c main_arg0

/-- Their blocks at grid point `t`. -/
abbrev aBlk (c : Dev nD) (t : Fin cfg0.N) : Vec F S1024x256 .bf16 := iblk m c 0 t
abbrev vBlk (c : Dev nD) (t : Fin cfg0.N) : Vec F S1024x256 .bf16 := iblk m c 1 t
abbrev rBlk (c : Dev nD) (t : Fin cfg0.N) : Vec F S1024x1024 .f32 := iblk m c 2 t

/-- Row `p` of point `t`'s row tile, as a row of the whole arrays. -/
def rowOf (t : Fin cfg0.N) (p : Fin 1024) : Fin 8192 :=
  ⟨1024 * (t.val / 8) + p.val, by have := t.isLt; have : cfg0.N = 64 := N_0; have := p.isLt; omega⟩

/-- Point `t`'s column tile. -/
def tileOf (t : Fin cfg0.N) : Fin 8 := ⟨t.val % 8, Nat.mod_lt _ (by decide)⟩

/-- The block indices of the four windows at point `t`: row tile `t / 8`, column tile `t % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- The user-factor block reads the user factors at the point's row tile. -/
theorem aBlk_apply (c : Dev nD) (t : Fin cfg0.N) (p : Fin 1024) (k : Fin 256) :
    aBlk m c t (ix2 p k) = aArr m c (ix2 (rowOf t p) k) := by
  obtain ⟨e0, e1, -⟩ := idx_facts t
  show iblk m c 0 t (ix2 p k) = _
  unfold iblk
  rw [View.read_apply]
  show V m c main_v2 (((cfg0.win 0).blk t).view.emb (ix2 p k)) = V m c main_v2 (ix2 (rowOf t p) k)
  congr 1
  funext a; apply Fin.ext
  match a with
  | ⟨0, _⟩ => show win0_0.index t (0 : Fin 2) * 1024 + 1 * p.val = 1024 * (t.val / 8) + p.val; omega
  | ⟨1, _⟩ => show win0_0.index t (1 : Fin 2) * 256 + 1 * k.val = k.val; omega

/-- The item-factor block reads the item factors at the point's column tile. -/
theorem vBlk_apply (c : Dev nD) (t : Fin cfg0.N) (q : Fin 1024) (k : Fin 256) :
    vBlk m c t (ix2 q k) = vArr m c (ix2 (tileCol (tileOf t) q) k) := by
  obtain ⟨-, -, e0, e1, -⟩ := idx_facts t
  show iblk m c 1 t (ix2 q k) = _
  unfold iblk
  rw [View.read_apply]
  show V m c main_v3 (((cfg0.win 1).blk t).view.emb (ix2 q k)) = V m c main_v3 (ix2 (tileCol (tileOf t) q) k)
  congr 1
  funext a; apply Fin.ext
  match a with
  | ⟨0, _⟩ => show win0_1.index t (0 : Fin 2) * 1024 + 1 * q.val = 1024 * (t.val % 8) + q.val; omega
  | ⟨1, _⟩ => show win0_1.index t (1 : Fin 2) * 256 + 1 * k.val = k.val; omega

/-- The rating block reads the ratings at the point's row tile against its column tile. -/
theorem rBlk_apply (c : Dev nD) (t : Fin cfg0.N) (p q : Fin 1024) :
    rBlk m c t (ix2 p q) = rArr m c (ix2 (rowOf t p) (tileCol (tileOf t) q)) := by
  obtain ⟨-, -, -, -, e0, e1, -⟩ := idx_facts t
  show iblk m c 2 t (ix2 p q) = _
  unfold iblk
  rw [View.read_apply]
  show V m c main_arg0 (((cfg0.win 2).blk t).view.emb (ix2 p q)) = V m c main_arg0 (ix2 (rowOf t p) (tileCol (tileOf t) q))
  congr 1
  funext a; apply Fin.ext
  match a with
  | ⟨0, _⟩ => show win0_2.index t (0 : Fin 2) * 1024 + 1 * p.val = 1024 * (t.val / 8) + p.val; omega
  | ⟨1, _⟩ => show win0_2.index t (1 : Fin 2) * 1024 + 1 * q.val = 1024 * (t.val % 8) + q.val; omega

/-! ## The host lines before the kernel -/

/-- The user factors the kernel stages: the transposed table times the user features, narrowed. -/
theorem aArr_eq (c : Dev nD) :
    aArr m c = truncf .bf16 (mulf (transpose S8192x256 [1, 0] (m ((c : Thread nD τ).loc main_arg5)) transposes_S256x8192_S8192x256_1_0)
      (m ((c : Thread nD τ).loc main_arg1))) bitsLt_bf16_f32 := by
  show StableHlo.after hostOps0 (fun b => m (c, b)) (Proc.devRef .tc main_v2) = _
  after_results

/-- The item factors the kernel stages: the item features, narrowed. -/
theorem vArr_eq (c : Dev nD) :
    vArr m c = truncf .bf16 (m ((c : Thread nD τ).loc main_arg2)) bitsLt_bf16_f32 := by
  show StableHlo.after hostOps0 (fun b => m (c, b)) (Proc.devRef .tc main_v3) = _
  after_results

/-- The ratings are staged as launched. -/
theorem rArr_eq (c : Dev nD) : rArr m c = m ((c : Thread nD τ).loc main_arg0) := V_main_arg0 m c

end Cert.KernelIdeal.Blocks

/-! ## Over the extended reals: narrowing is the identity -/

namespace Cert.KernelIdeal.Blocks

open Cert.KernelIdeal Cert.KernelIdeal.Gen Cert.RatingError

variable (m : (ℓ : Loc nD τ sig) → Buf (Elt Ideal) ℓ)

/-- The staged user factors are the specification's. -/
theorem aArr_ideal (c : Dev nD) :
    aArr m c = userFactors (m ((c : Thread nD τ).loc main_arg5)) (m ((c : Thread nD τ).loc main_arg1)) := by
  rw [aArr_eq]
  funext i
  obtain ⟨u, k, rfl⟩ : ∃ (u : Fin 8192) (k : Fin 256), i = ix2 u k := ⟨i 0, i 1, eq_ix2 i⟩
  rw [truncf_apply, mulf_apply, transpose_ix2_apply]
  rfl

/-- The staged item factors are the item features. -/
theorem vArr_ideal (c : Dev nD) : vArr m c = m ((c : Thread nD τ).loc main_arg2) := by
  rw [vArr_eq]
  funext i
  rw [truncf_apply]

end Cert.KernelIdeal.Blocks

end
-- ==== Proof.Pieces.lean ====
/-
  What one grid point leaves behind, as values. The body keeps a 1024 × 1 column of running row sums in a scratch
  buffer that lives across grid points. At the first column tile of a row tile it clears the column and then adds this
  tile's row sums; at every later tile it adds to what the tile before left; at the last tile it also copies the column
  into the output block. Each statement below says that what a case of the body leaves in a buffer is the body's update
  applied to the blocks it read: the update of the cleared column in the first case, the update of the carried column
  in the other two, and for the output block of the last case the very same column.
-/
import proofs.«150954_j68676527063484_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First column tile: the scratch column ends at the update of the cleared column. -/
theorem scratch_first (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x256 .bf16) (x1 : Vec F S1024x256 .bf16) (x2 : Vec F S1024x1024 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x256) hz, View.ld_unit_zero (S := S1024x1024) hz]

/-- A middle column tile: the scratch column ends at the update of what the tile before left. -/
theorem scratch_middle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x256 .bf16) (x1 : Vec F S1024x256 .bf16) (x2 : Vec F S1024x1024 .f32) (xs0 : Vec F S1024x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S1024x256) hz, View.ld_unit_zero (S := S1024x1024) hz, View.ld_unit_zero (S := S1024x1) hz]

/-- The last column tile: the scratch column ends at the update of what the tile before left, -/
theorem scratch_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x256 .bf16) (x1 : Vec F S1024x256 .bf16) (x2 : Vec F S1024x1024 .f32) (xs0 : Vec F S1024x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x256) hz, View.ld_unit_zero (S := S1024x1024) hz, View.ld_unit_zero (S := S1024x1) hz]

/-- and the output block is that same column, read back after the update. -/
theorem out_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x256 .bf16) (x1 : Vec F S1024x256 .bf16) (x2 : Vec F S1024x1024 .f32) (xs0 : Vec F S1024x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x256) hz, View.ld_unit_zero (S := S1024x1024) hz, View.ld_unit_zero (S := S1024x1) hz,
    View.readCov_unit_zero (S := S1024x1) _ hz]

end Cert.KernelIdeal.Pieces

end
-- ==== Proof.Payload.lean ====
/-
  The body's arithmetic, read at one row, over the extended reals. With `x0` the 1024 × 256 block of user factors,
  `x1` the 1024 × 256 block of item factors, `x2` the 1024 × 1024 block of ratings and `acc` the carried column of row
  sums, the update leaves in row `p` the old entry plus the sum, over the block's 1024 items `q`, of the masked squared
  error of the dot product `∑ₖ x0(p,k)·x1(q,k)` against the rating `x2(p,q)`. Narrowing to bf16 is the identity on the
  extended reals, a matrix product into a zero accumulator is the plain sum of products, a lane reduction from zero is
  the plain sum, and the mask (an ordered "not equal to zero", widened and converted) is the observed-rating indicator.
-/
import proofs.«150954_j68676527063484_1_alg».proof.Proof.Spec
import proofs.«150954_j68676527063484_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.PayloadValue

open Cert.KernelIdeal Cert.KernelIdeal.Gen Cert.RatingError

/-! ## The matrix product's operand indices

Both operands contract their second axis, so at output entry (p, q) and contraction coordinate k the left operand is read
at (p, k) and the right operand at (q, k). -/

/-- The left operand's row is the output's row. -/
theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- The left operand's column is the contraction coordinate. -/
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- The right operand's row is the output's column. -/
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- The right operand's column is the contraction coordinate. -/
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-! ## Each non-pointwise operation read at an entry -/

/-- The matrix product into the zero accumulator at entry (p, q): the dot product `∑ₖ y0(p,k)·y1(q,k)` of row `p` of the
    left operand with row `q` of the right operand. -/
theorem matmul_zero_apply (y0 y1 : FVec Ideal S1024x256 .bf16) (p q : Fin 1024) :
    matmul dot_S1024x256_S1024x256_S1024x1024_1_1_0_0_n_n none y0 y1 (constant (F := Ideal) S1024x1024 .f32 0x00000000#32) (ix2 p q)
      = ∑ k : Fin 256, y0 (ix2 p k) * y1 (ix2 q k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]

/-- The mask at one rating: the ordered comparison "`r` is not equal to zero" is one bit; widened to 32 bits and read as a
    signed integer it is `1` where `r ≠ 0` and `0` where `r = 0`, which is the observed-rating indicator. -/
theorem mask_apply (r : Ideal .f32) :
    FloatOps.sitofp (F := Ideal) .f32 ((FloatOps.cmpf .one r (Scalar.ofBits (F := Ideal) .f32 0x00000000#32)).setWidth 32) = observed r := by
  rw [Ideal.cmpf_def]
  show (((((Ideal.cmp .one r (Ideal.ofBits .f32 0x00000000#32)).setWidth 32).toInt : ℝ)) : EReal) = observed r
  rw [Ideal.ofBits_zero_f32]
  unfold observed Ideal.cmp
  by_cases h : r = 0
  · simp [h]
  · simp [h]

/-- The lane sum from zero at row `p`: the plain sum of the row's 1024 entries. -/
theorem laneSum_apply (v : FVec Ideal S1024x1024 .f32) (hφ : FKind.Formats .f32)
    (hacc : (0x00000000#32 : BitVec 32) = 0x00000000#32) (p : Fin 1024) :
    multiReduction (F := Ideal) .add [1] S1024 v 0x00000000#32 reduces_S1024x1024_S1024 hφ hacc (ix1 p)
      = ∑ q : Fin 1024, v (ix2 p q) := by
  refine (Ideal.multiReduction_add_single v 0x00000000#32 reduces_S1024x1024_S1024 hφ hacc (ix1 p)).trans ?_
  refine Finset.sum_congr rfl fun q _ => congrArg v ?_
  funext a
  match a with
  | ⟨0, _⟩ => exact Fin.ext rfl
  | ⟨1, _⟩ => exact Fin.ext rfl

/-- A vector of 1024 entries viewed as a 1024 × 1 column: entry (p, 0) of the column is entry `p` of the vector, the two
    having the same row-major position `p`. -/
theorem column_apply (v : FVec Ideal S1024 .f32) (p : Fin 1024) (z : Fin 1) :
    shapeCast S1024x1 v shapeCasts_S1024_S1024x1 (ix2 p z) = v (ix1 p) := by
  refine shapeCast_apply v shapeCasts_S1024_S1024x1 (ix2 p z) (ix1 p) ?_
  rw [Shape.rowMajor_val_one, Shape.rowMajor_val_two]
  have hz := z.isLt
  show p.val = p.val * 1 + z.val
  omega

/-- The update with the row named: at entry (p, z) of the column the old entry plus `∑_q sqErr (x2(p,q)) (∑ₖ x0(p,k)·x1(q,k))`.
    The same-shape casts are identities, the sum and the column view are read at row `p`, and under the row sum each factor
    is read at (p, q): the difference of the rating and the dot product, squared, times the observed-rating indicator. -/
theorem update_at (x0 x1 : FVec Ideal S1024x256 .bf16) (x2 : FVec Ideal S1024x1024 .f32) (acc : FVec Ideal S1024x1 .f32)
    (p : Fin 1024) (z : Fin 1) :
    k0_pay2 x0 x1 x2 acc (ix2 p z)
      = acc (ix2 p z) + ∑ q : Fin 1024, sqErr (x2 (ix2 p q)) (∑ k : Fin 256, x0 (ix2 p k) * x1 (ix2 q k)) := by
  unfold k0_pay2
  simp only [shapeCast_self]
  rw [addf_apply, column_apply]
  refine congrArg (acc (ix2 p z) + ·) ?_
  refine (laneSum_apply _ _ _ p).trans ?_
  refine Finset.sum_congr rfl fun q _ => ?_
  rw [mulf_apply, mulf_apply, subf_apply, matmul_zero_apply, sitofp_apply, extui_apply, cmpf_apply, broadcast_apply, mask_apply]
  rfl

/-- The cleared column is zero everywhere. -/
theorem reset_apply (i : S1024x1.Idx) : k0_pay1 (F := Ideal) i = 0 := by
  unfold k0_pay1
  rw [shapeCast_self]
  exact Ideal.ofBits_zero_f32

/-- The update at row `i 0`: the old entry plus this block's masked squared errors summed along the row. -/
theorem update_apply (x0 x1 : Vec Ideal S1024x256 .bf16) (x2 : Vec Ideal S1024x1024 .f32) (acc : Vec Ideal S1024x1 .f32)
    (i : S1024x1.Idx) :
    k0_pay2 x0 x1 x2 acc i
      = acc i + ∑ q : Fin 1024, sqErr (x2 (ix2 (i 0) q)) (∑ k : Fin 256, x0 (ix2 (i 0) k) * x1 (ix2 q k)) := by
  obtain ⟨p, z, rfl⟩ : ∃ (p : Fin 1024) (z : Fin 1), i = ix2 p z := ⟨i 0, i 1, eq_ix2 i⟩
  exact update_at x0 x1 x2 acc p z

end Cert.KernelIdeal.PayloadValue

end
-- ==== Proof.Fold.lean ====
/-
  The carried column of row sums across the grid, over the extended reals.

  Within a row tile the eight grid points run left to right over the column tiles. The first clears the column and
  adds its tile's row sums; each later one adds its own to what the one before left; so after the j-th point of a row
  tile the column holds the sum of the first j + 1 tiles' row sums, and after the eighth — the point that copies the
  column to the output block — every row holds its full total over all 8192 items. The recursion over points is the
  library's fold from the last reset; with every step an addition it unrolls to a finite sum of per-point addends.
-/
import proofs.«150954_j68676527063484_1_alg».proof.Proof.Blocks
import proofs.«150954_j68676527063484_1_alg».proof.Proof.Pieces
import proofs.«150954_j68676527063484_1_alg».proof.Proof.Payload

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.RatingError Cert.KernelIdeal.Blocks

variable (m : (ℓ : Loc nD τ sig) → Buf (Elt Ideal) ℓ)

/-- What grid point `t` adds to row `p` of the carried column: its column tile's entry errors summed along the row. -/
def addend (c : Dev nD) (t : Fin cfg0.N) (p : Fin 1024) : EReal :=
  ∑ q : Fin 1024, entryErr (aArr m c) (vArr m c) (rArr m c) (rowOf t p) (tileCol (tileOf t) q)

/-- Every index of a 1024 × 1 column is a row and the one lane. -/
theorem exists_row (i : S1024x1.Idx) : ∃ (p : Fin 1024) (z : Fin 1), i = ix2 p z := ⟨i 0, i 1, eq_ix2 i⟩

/-- The body's update on point `t`'s blocks adds that point's addend. -/
theorem update_eq (c : Dev nD) (t : Fin cfg0.N) (acc : Vec Ideal S1024x1 .f32) (p : Fin 1024) (z : Fin 1) :
    k0_pay2 (aBlk m c t) (vBlk m c t) (rBlk m c t) acc (ix2 p z) = acc (ix2 p z) + addend m c t p := by
  refine (PayloadValue.update_apply (aBlk m c t) (vBlk m c t) (rBlk m c t) acc (ix2 p z)).trans ?_
  show acc (ix2 p z) + ∑ q : Fin 1024, sqErr (rBlk m c t (ix2 p q)) (∑ k : Fin 256, aBlk m c t (ix2 p k) * vBlk m c t (ix2 q k)) = _
  refine congrArg (acc (ix2 p z) + ·) (Finset.sum_congr rfl fun q _ => ?_)
  unfold entryErr predicted
  rw [rBlk_apply]
  refine congrArg (sqErr _) (Finset.sum_congr rfl fun k _ => ?_)
  rw [aBlk_apply, vBlk_apply]

/-- At the first column tile of a row tile the column ends at the update of the cleared column. -/
theorem col_reset (c : Dev nD) (t : Fin cfg0.N) (h0 : t.val % 8 = 0) :
    (outsAt0 m c t.val t.isLt).2 = k0_pay2 (aBlk m c t) (vBlk m c t) (rBlk m c t) (k0_pay1 (F := Ideal)) := by
  have h1 : ¬t.val % 8 = 7 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every other column tile it ends at the update of what the point before left. -/
theorem col_step (c : Dev nD) (t : Fin cfg0.N) (h0 : ¬t.val % 8 = 0) :
    (outsAt0 m c t.val t.isLt).2
      = k0_pay2 (aBlk m c t) (vBlk m c t) (rBlk m c t) ((outsAt0 m c (t.val - 1) (Nat.lt_of_le_of_lt (Nat.sub_le _ _) t.isLt)).2) := by
  by_cases h1 : t.val % 8 = 7
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2)
  · rw [outsAt0_B m c t h0 h1]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) ((outsAt0 m c (t.val - 1) (Nat.lt_of_le_of_lt (Nat.sub_le _ _) t.isLt)).2)

/-- At the last column tile the output block is the column itself. -/
theorem out_eq_col (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2)).trans
    (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) ((outsAt0 m c (t.val - 1) (Nat.lt_of_le_of_lt (Nat.sub_le _ _) t.isLt)).2)).symm

/-- The column a row tile's first point leaves, and the step every later point applies. -/
def resetAt (c : Dev nD) (n : ℕ) (h : n < cfg0.N) : Vec Ideal S1024x1 .f32 :=
  k0_pay2 (aBlk m c ⟨n, h⟩) (vBlk m c ⟨n, h⟩) (rBlk m c ⟨n, h⟩) (k0_pay1 (F := Ideal))
def stepAt (c : Dev nD) (n : ℕ) (h : n < cfg0.N) (acc : Vec Ideal S1024x1 .f32) : Vec Ideal S1024x1 .f32 :=
  k0_pay2 (aBlk m c ⟨n, h⟩) (vBlk m c ⟨n, h⟩) (rBlk m c ⟨n, h⟩) acc

/-- The carried column after point `t` is the fold from the first point of `t`'s row tile. -/
theorem col_eq_fold (c : Dev nD) (t : Fin cfg0.N) (h' : 8 * (t.val / 8) + t.val % 8 < cfg0.N) :
    (outsAt0 m c t.val t.isLt).2 = Pipeline.accAt (resetAt m c) (stepAt m c) (8 * (t.val / 8)) (t.val % 8) h' :=
  Pipeline.eq_accAt_of_mod (fun n h => (outsAt0 m c n h).2) 8 (resetAt m c) (stepAt m c)
    (fun n h hm => col_reset m c ⟨n, h⟩ hm)
    (fun n h hm => col_step m c ⟨n + 1, h⟩ hm)
    (by decide) t.val t.isLt h'

/-- A point's addend as a function of every natural (zero past the grid, where it is never read). -/
def addendN (c : Dev nD) (n : ℕ) (i : S1024x1.Idx) : EReal :=
  if h : n < cfg0.N then addend m c ⟨n, h⟩ (i 0) else 0

/-- The fold after `j` steps from point `b` is the sum of the addends of points `b … b + j`. -/
theorem fold_apply (c : Dev nD) (b j : ℕ) (hj : j ≤ 7) (h : b + j < cfg0.N) (i : S1024x1.Idx) :
    Pipeline.accAt (resetAt m c) (stepAt m c) b j h i = 0 + ∑ s ∈ Finset.range (j + 1), addendN m c (b + s) i :=
  Pipeline.accAt_add_apply (resetAt m c) (stepAt m c) (fun _ => 0) (addendN m c) b 7
    (fun h i => by
      obtain ⟨p, z, rfl⟩ := exists_row i
      show k0_pay2 (aBlk m c ⟨b, h⟩) (vBlk m c ⟨b, h⟩) (rBlk m c ⟨b, h⟩) (k0_pay1 (F := Ideal)) (ix2 p z) = 0 + addendN m c b (ix2 p z)
      rw [update_eq, PayloadValue.reset_apply]
      unfold addendN
      rw [dif_pos h])
    (fun n h acc i _ _ => by
      obtain ⟨p, z, rfl⟩ := exists_row i
      show k0_pay2 (aBlk m c ⟨n, h⟩) (vBlk m c ⟨n, h⟩) (rBlk m c ⟨n, h⟩) acc (ix2 p z) = acc (ix2 p z) + addendN m c n (ix2 p z)
      rw [update_eq]
      unfold addendN
      rw [dif_pos h])
    j hj h i

/-- The output block a row tile's last point stores: every row at its full total over the 8192 items. -/
theorem out_apply (c : Dev nD) (t : Fin cfg0.N) (h1 : t.val % 8 = 7) (p : Fin 1024) (z : Fin 1) :
    (outsAt0 m c t.val t.isLt).1 (ix2 p z) = rowTotals (aArr m c) (vArr m c) (rArr m c) (ix2 (rowOf t p) (0 : Fin 1)) := by
  have hN : cfg0.N = 64 := N_0
  have ht : t.val < 64 := lt_of_lt_of_eq t.isLt hN
  have h0 : ¬t.val % 8 = 0 := by omega
  have h' : 8 * (t.val / 8) + t.val % 8 < cfg0.N := by omega
  have h8 : t.val % 8 + 1 = 8 := by omega
  rw [out_eq_col m c t h0 h1, col_eq_fold m c t h', fold_apply m c _ _ (by omega) h' (ix2 p z), zero_add, h8, Finset.sum_range]
  show ∑ s : Fin 8, addendN m c (8 * (t.val / 8) + s.val) (ix2 p z)
    = ∑ s : Fin 8, ∑ q : Fin 1024, entryErr (aArr m c) (vArr m c) (rArr m c) (rowOf t p) (tileCol s q)
  refine Finset.sum_congr rfl fun s _ => ?_
  have hs : 8 * (t.val / 8) + s.val < cfg0.N := by have := s.isLt; omega
  unfold addendN
  rw [dif_pos hs]
  show addend m c ⟨8 * (t.val / 8) + s.val, hs⟩ p = _
  unfold addend
  have e1 : rowOf ⟨8 * (t.val / 8) + s.val, hs⟩ p = rowOf t p :=
    Fin.ext (by show 1024 * ((8 * (t.val / 8) + s.val) / 8) + p.val = 1024 * (t.val / 8) + p.val; have := s.isLt; omega)
  have e2 : tileOf ⟨8 * (t.val / 8) + s.val, hs⟩ = s :=
    Fin.ext (by show (8 * (t.val / 8) + s.val) % 8 = s.val; have := s.isLt; omega)
  rw [e1, e2]

end Cert.KernelIdeal.Fold

end
-- ==== Proof.Final.lean ====
/-
  The kernel's output array, and the number the program returns.

  Only the last point of each row tile writes its block back, and the eight row tiles' blocks tile the 8192 × 1
  output, so after the run row `u` of the output holds row `u`'s full total of masked squared errors. The host lines
  after the kernel add these totals up, halve the sum, and add the three halved, scaled sums of squares of the user
  features, the item features and the table.
-/
import proofs.«150954_j68676527063484_1_alg».proof.Proof.Fold
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.RatingError Cert.KernelIdeal.Blocks Cert.KernelIdeal.Fold

variable (m : (ℓ : Loc nD τ sig) → Buf (Elt Ideal) ℓ) (ρ : Dev nD → PrngReg)

/-- The column of row totals, as contents of the kernel's output array. -/
abbrev totals (c : Dev nD) : Buf (Elt Ideal) ((c : Thread nD τ).loc main_v4) :=
  rowTotals (aArr m c) (vArr m c) (rArr m c)

/-- What a writing point writes back is its block of the column of row totals. -/
theorem flushed_eq (c : Dev nD) (t : Fin cfg0.N) (hf : (cfg0.win 3).flush t = true) :
    (dats m 0 c).flushed 3 t = ((cfg0.win 3).blk t).view.read (Elt Ideal) (totals m c) := by
  have h1 : t.val % 8 = 7 := (flush0_3 t).mp hf
  obtain ⟨-, -, -, -, -, -, e0, e1⟩ := idx_facts t
  show (cfg0.win 3).cut (grid0.coords t) ((dats m 0 c).after 3 t) = _
  rw [after0_3]
  funext j
  obtain ⟨p, z, rfl⟩ := exists_row j
  show (outsAt0 m c t.val t.isLt).1 (ix2 p z) = rowTotals (aArr m c) (vArr m c) (rArr m c) (((cfg0.win 3).blk t).view.emb (ix2 p z))
  rw [out_apply m c t h1 p z]
  refine congrArg (rowTotals (aArr m c) (vArr m c) (rArr m c)) ?_
  funext a; apply Fin.ext
  match a with
  | ⟨0, _⟩ => show 1024 * (t.val / 8) + p.val = win0_3.index t (0 : Fin 2) * 1024 + 1 * p.val; omega
  | ⟨1, _⟩ => show 0 = win0_3.index t (1 : Fin 2) * 1 + 1 * z.val; have := z.isLt; omega

/-- Every row of the output lies in the block some row tile's last point writes back. -/
theorem cover (i : S8192x1.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 1 := (i 1).isLt
  have ht : 8 * ((i 0).val / 1024) + 7 < cfg0.N := by omega
  obtain ⟨-, -, -, -, -, -, e0, e1⟩ := idx_facts ⟨8 * ((i 0).val / 1024) + 7, ht⟩
  have e0' : win0_3.index ⟨8 * ((i 0).val / 1024) + 7, ht⟩ (0 : Fin 2) = (8 * ((i 0).val / 1024) + 7) / 8 := e0
  refine ⟨⟨8 * ((i 0).val / 1024) + 7, ht⟩, (flush0_3 _).mpr (by show (8 * ((i 0).val / 1024) + 7) % 8 = 7; omega), ?_⟩
  show i ∈ ((View.whole main_v4).slice (win0_3.rect ⟨8 * ((i 0).val / 1024) + 7, ht⟩)).set
  rw [View.set_slice_whole, Rect.mem_set_unit]
  intro a
  match a with
  | ⟨0, _⟩ =>
    show win0_3.index ⟨8 * ((i 0).val / 1024) + 7, ht⟩ (0 : Fin 2) * 1024 ≤ (i 0).val
      ∧ (i 0).val < win0_3.index ⟨8 * ((i 0).val / 1024) + 7, ht⟩ (0 : Fin 2) * 1024 + 1024
    omega
  | ⟨1, _⟩ =>
    show win0_3.index ⟨8 * ((i 0).val / 1024) + 7, ht⟩ (1 : Fin 2) * 1 ≤ (i 1).val
      ∧ (i 1).val < win0_3.index ⟨8 * ((i 0).val / 1024) + 7, ht⟩ (1 : Fin 2) * 1 + 1
    omega

/-- After the run the output array is the column of row totals. -/
theorem final_out (c : Dev nD) : (dats m 0 c).arrAt 3 cfg0.N = totals m c :=
  (dats m 0 c).arrAt_eq_of_cover 3 (totals m c) (flushed_eq m c) (fun i => cover i)

/-- The host lines after the kernel, as one function of the column of row totals and the three feature arrays:
    half the sum of the totals, plus half of a tenth of each array's sum of squares. -/
def closing (out : Vec Ideal S8192x1 .f32) (U Vf : Vec Ideal S8192x256 .f32) (P : Vec Ideal S256x8192 .f32) : Vec Ideal S_ .f32 :=
  addf (addf (addf
    (Host.divf (F := Ideal) (Host.reduceAdd (F := Ideal) out (constant (F := Ideal) S_ .f32 0x00000000#32) reducesTo_S8192x1_S_d0_1 h_S_) (constant (F := Ideal) S_ .f32 0x40000000#32))
    (Host.divf (F := Ideal) (mulf (constant (F := Ideal) S_ .f32 0x3DCCCCCD#32) (Host.reduceAdd (F := Ideal) (mulf U U) (constant (F := Ideal) S_ .f32 0x00000000#32) reducesTo_S8192x256_S_d0_1 h_S_)) (constant (F := Ideal) S_ .f32 0x40000000#32)))
    (Host.divf (F := Ideal) (mulf (constant (F := Ideal) S_ .f32 0x3DCCCCCD#32) (Host.reduceAdd (F := Ideal) (mulf Vf Vf) (constant (F := Ideal) S_ .f32 0x00000000#32) reducesTo_S8192x256_S_d0_1 h_S_)) (constant (F := Ideal) S_ .f32 0x40000000#32)))
    (Host.divf (F := Ideal) (mulf (constant (F := Ideal) S_ .f32 0x3DCCCCCD#32) (Host.reduceAdd (F := Ideal) (mulf P P) (constant (F := Ideal) S_ .f32 0x00000000#32) reducesTo_S256x8192_S_d0_1 h_S_)) (constant (F := Ideal) S_ .f32 0x40000000#32))

/-- The value the program returns. -/
abbrev result (c : Dev nD) : Buf (Elt Ideal) ((c : Thread nD τ).loc main_v21) :=
  closing (totals m c) (m ((c : Thread nD τ).loc main_arg1)) (m ((c : Thread nD τ).loc main_arg2)) (m ((c : Thread nD τ).loc main_arg5))

set_option maxHeartbeats 4000000 in
/-- The host lines after the kernel leave the returned buffer at `closing` of the output array and the launch contents
    of the feature arrays. -/
theorem tail_eq (c : Dev nD) :
    Pipeline.afterTail₀ cfgs (dats m) 0 (V0 m) [hostOps1] c main_v21 = result m c := by
  unfold Pipeline.afterTail₀
  show StableHlo.after hostOps1 _ (Proc.devRef .tc main_v21) = _
  after_results_simp
  have e_out : Pipeline.withArrays (cfgs 0).spec c (V0 m c) (fun w => (dats m 0 c).arrAt w (cfgs 0).N) (Proc.devRef .tc main_v4) = totals m c :=
    (Pipeline.withArrays_arr spec0 launch0.win.arr_inj c (V0 m c) (fun w => (dats m 0 c).arrAt w cfg0.N) 3).trans (final_out m c)
  have e_arg1 : Pipeline.withArrays (cfgs 0).spec c (V0 m c) (fun w => (dats m 0 c).arrAt w (cfgs 0).N) (Proc.devRef .tc main_arg1) = m ((c : Thread nD τ).loc main_arg1) :=
    (Pipeline.withArrays_of_ne spec0 c (V0 m c) (fun w => (dats m 0 c).arrAt w cfg0.N) main_arg1
      (by exact (by decide : ∀ w, Pipeline.arrRef spec0 w ≠ main_arg1))).trans (V_main_arg1 m c)
  have e_arg2 : Pipeline.withArrays (cfgs 0).spec c (V0 m c) (fun w => (dats m 0 c).arrAt w (cfgs 0).N) (Proc.devRef .tc main_arg2) = m ((c : Thread nD τ).loc main_arg2) :=
    (Pipeline.withArrays_of_ne spec0 c (V0 m c) (fun w => (dats m 0 c).arrAt w cfg0.N) main_arg2
      (by exact (by decide : ∀ w, Pipeline.arrRef spec0 w ≠ main_arg2))).trans (V_main_arg2 m c)
  have e_arg5 : Pipeline.withArrays (cfgs 0).spec c (V0 m c) (fun w => (dats m 0 c).arrAt w (cfgs 0).N) (Proc.devRef .tc main_arg5) = m ((c : Thread nD τ).loc main_arg5) :=
    (Pipeline.withArrays_of_ne spec0 c (V0 m c) (fun w => (dats m 0 c).arrAt w cfg0.N) main_arg5
      (by exact (by decide : ∀ w, Pipeline.arrRef spec0 w ≠ main_arg5))).trans (V_main_arg5 m c)
  rw [e_out, e_arg1, e_arg2, e_arg5]
  rfl

/-- The kernel program's run, read: the returned buffer at `result`, every argument array as launched. -/
theorem run : θ_run defs (onTc (τ := τ) (main (F := Ideal))) ⟨m, fun _ => 0, ρ⟩ (fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨((h c).2 main_v21 (Pipeline.mem_restRefs_of main_v21 (by decide) (by decide))).trans (tail_eq m c),
      ((h c).1 2).trans ((((dats m) 0 c).arrAt_in 2 rfl _).trans ((A_eq m c 2).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Final

end
-- ==== Proof.RefValue.lean ====
/-
  The reference, stage by stage, is the specification: its user factors are the transposed table times the user
  features, its predicted rating is the dot product of a user's and an item's factor rows (the item features enter
  transposed, which only renames the index), its mask (an "unordered or not equal to zero" compare, converted) is the
  observed-rating indicator, and its error array is the masked squared error entry by entry.
-/
import proofs.«150954_j68676527063484_1_alg».proof.Proof.Spec
import proofs.«150954_j68676527063484_1_alg».proof.Proof.Gen.ReferenceIdeal.Read
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.RatingError

/-- Row `u` of the left factor, at contraction position `k`: the entry (u, k). -/
theorem lidx_eq (u j : Fin 8192) (k : Fin 256) : lidx_main_v6 (ix2 u j) k = ix2 u k :=
  funext fun a => Fin.ext (by match a with | ⟨0, _⟩ => rfl | ⟨1, _⟩ => rfl)

/-- The transposed table read at (u, k) is the table at (k, u). -/
theorem tidx_eq (u : Fin 8192) (k : Fin 256) : idx_main_v3 (ix2 u k) = ix2 k u :=
  funext fun a => Fin.ext (by match a with | ⟨0, _⟩ => rfl | ⟨1, _⟩ => rfl)

/-- The transposed item features read at (k, j) are the item features at (j, k). -/
theorem ridx_eq (u j : Fin 8192) (k : Fin 256) : idx_main_v5 (ridx_main_v6 (ix2 u j) k) = ix2 j k :=
  funext fun a => Fin.ext (by match a with | ⟨0, _⟩ => rfl | ⟨1, _⟩ => rfl)

/-- Over the extended reals a one-bit word converts to its value as a natural number, `0` or `1`. -/
theorem uitofp_eq (b : BitVec 1) : (FloatOps.uitofp (F := Ideal) .f32 b : EReal) = ((b.toNat : ℝ) : EReal) := rfl

/-- The converted "not equal to the zero word" compare is the observed-rating indicator: `0` at `r = 0`, else `1`. -/
theorem mask_eq (r : EReal) :
    (FloatOps.uitofp (F := Ideal) .f32 (FloatOps.cmpf (F := Ideal) (φ := .f32) .une r (FloatOps.ofBits (F := Ideal) .f32 0x00000000#32)) : EReal) = observed r := by
  rw [Ideal.cmpf_def, Ideal.ofBits_def, Ideal.ofBits_zero_f32, uitofp_eq]
  unfold Ideal.cmp observed
  by_cases h : r = 0
  · simp [h]
  · simp [h]

/-- The contraction at entry (u, j) is the predicted rating: term `k` is `P(k,u)·U(u,k)` times `Vf(j,k)`. -/
theorem dot_eq (U Vf : (⟨S8192x256, .f32⟩ : BufTy).Contents (Elt Ideal)) (P : (⟨S256x8192, .f32⟩ : BufTy).Contents (Elt Ideal))
    (u j : Fin 8192) :
    (∑ k : Fin 256, val_main_v4 (F := Ideal) U P (lidx_main_v6 (ix2 u j) k) * val_main_v5 (F := Ideal) Vf (ridx_main_v6 (ix2 u j) k))
      = predicted (userFactors P U) Vf u j := by
  unfold predicted userFactors
  refine Finset.sum_congr rfl fun k _ => ?_
  rw [val_main_v4_apply, val_main_v3_apply, val_main_v5_apply, lidx_eq, tidx_eq, ridx_eq, Ideal.mulf_def]

/-- The reference's error array (ratings `R`, user features `U`, item features `Vf`, table `P`) is the specification's. -/
theorem errStage_eq (R : (⟨S8192x8192, .f32⟩ : BufTy).Contents (Elt Ideal)) (U Vf : (⟨S8192x256, .f32⟩ : BufTy).Contents (Elt Ideal))
    (P : (⟨S256x8192, .f32⟩ : BufTy).Contents (Elt Ideal)) :
    val_main_v9 (F := Ideal) R U Vf P = errMatrix (userFactors P U) Vf R := by
  funext i
  obtain ⟨u, j, rfl⟩ : ∃ (u : Fin 8192) (j : Fin 8192), i = ix2 u j := ⟨i 0, i 1, eq_ix2 i⟩
  rw [val_main_v9_apply, val_main_v8_apply, val_main_v7_apply, val_main_v6_apply, val_main_v2_apply,
    val_main_v1_apply, val_main_v0_apply, val_main_cst_apply, mask_eq, dot_eq,
    Ideal.mulf_def, Ideal.mulf_def, Ideal.subf_def]
  rfl

end Cert.ReferenceIdeal.RefValue

end
-- ==== Proof.Join.lean ====
/-
  The two programs return the same number.

  The kernel's program sums the 8192 row totals; the reference sums all 8192 × 8192 entry errors. Each row total is
  the sum of its row's entry errors taken tile by tile, so the two sums agree (addition on the extended reals is
  commutative and associative, no finiteness needed). Everything after that sum — halving it and adding the three
  regularisation terms — is the same chain of operations on the same arrays in both programs.
-/
import proofs.«150954_j68676527063484_1_alg».proof.Proof.Final
import proofs.«150954_j68676527063484_1_alg».proof.Proof.RefValue

noncomputable section

open scoped BigOperators
open Idealize.ShloMosaic Idealize.ShloMosaic.ValueIdx

namespace Cert.RatingError.Join

open Cert.RatingError

/-- The host sum of the tiled row totals is the host sum of the reference's error array. -/
theorem total_eq (R : Vec Ideal Cert.ReferenceIdeal.S8192x8192 .f32) (U Vf : Vec Ideal Cert.ReferenceIdeal.S8192x256 .f32)
    (P : Vec Ideal Cert.ReferenceIdeal.S256x8192 .f32) :
    Host.reduceAdd (F := Ideal) (rowTotals (userFactors P U) Vf R) (constant (F := Ideal) Cert.KernelIdeal.S_ .f32 0x00000000#32)
        Cert.KernelIdeal.Gen.reducesTo_S8192x1_S_d0_1 Cert.KernelIdeal.Gen.h_S_
      = Host.reduceAdd (F := Ideal) (Cert.ReferenceIdeal.Read.val_main_v9 (F := Ideal) R U Vf P)
        (constant (F := Ideal) Cert.ReferenceIdeal.S_ .f32 0x00000000#32)
        Cert.ReferenceIdeal.Gen.reducesTo_S8192x8192_S_d0_1 Cert.ReferenceIdeal.Gen.h_S_ := by
  funext i
  simp only [Host.reduceAdd, Ideal.hostReduceAdd_def]
  rw [Ideal.hostReduceAdd_total Cert.KernelIdeal.Gen.reducesTo_S8192x1_S_d0_1 (fun b => b.elim0),
    Ideal.hostReduceAdd_total Cert.ReferenceIdeal.Gen.reducesTo_S8192x8192_S_d0_1 (fun b => b.elim0),
    Cert.ReferenceIdeal.RefValue.errStage_eq, sum_rowTotals]

/-- The kernel program's returned value, over the launch contents, is the reference's last stage. -/
theorem result_eq (R : Vec Ideal Cert.ReferenceIdeal.S8192x8192 .f32) (U Vf : Vec Ideal Cert.ReferenceIdeal.S8192x256 .f32)
    (P : Vec Ideal Cert.ReferenceIdeal.S256x8192 .f32) :
    Cert.KernelIdeal.Final.closing (rowTotals (userFactors P U) Vf R) U Vf P
      = Cert.ReferenceIdeal.Read.val_main_v43 (F := Ideal) R U Vf P := by
  unfold Cert.KernelIdeal.Final.closing
  rw [total_eq]
  rfl

end Cert.RatingError.Join

end
-- ==== Proof.lean ====
/-
  A matrix-factorisation loss, computed two ways.

  Both programs take a rating matrix `R` (8192 users × 8192 items), user features `U` and item features `Vf`
  (8192 × 256 each) and a 256 × 8192 table `P`, and return
      ½ · ∑ over (u, i) with R(u,i) ≠ 0 of (R(u,i) − ∑ₖ P(k,u)·U(u,k)·Vf(i,k))²
        + ½ · (1/10) · (∑ U² + ∑ Vf² + ∑ P²).
  The reference forms the full 8192 × 8192 error array and sums it at once. The kernel walks an 8 × 8 grid of
  1024 × 1024 tiles: per tile a 1024 × 256 by 1024 × 256 product of (bf16-narrowed) factor rows, the masked squared
  error against the ratings tile, summed along each row into a column that is carried across the eight column tiles of
  a row tile and written out after the last; the host then sums the 8192 row totals. Over the extended reals the
  narrowing is the identity and a sum may be taken in any grouping, so the two values are equal on every input; the
  remaining terms are the same operations on the same arrays.

  Each of the three programs terminates without a fault and leaves its seven argument arrays as launched; the
  idealized kernel is the kernel's own text read over the extended reals, with no operation rewritten.
-/
import proofs.«150954_j68676527063484_1_alg».proof.Defs
import proofs.«150954_j68676527063484_1_alg».proof.Proof.Gen.Kernel
import proofs.«150954_j68676527063484_1_alg».proof.Proof.Gen.Kernel.Skeleton
import proofs.«150954_j68676527063484_1_alg».proof.Proof.Gen.Kernel.Launch
import proofs.«150954_j68676527063484_1_alg».proof.Proof.Gen.Kernel.Points
import proofs.«150954_j68676527063484_1_alg».proof.Proof.Gen.Kernel.Frame
import proofs.«150954_j68676527063484_1_alg».proof.Proof.Gen.KernelIdeal
import proofs.«150954_j68676527063484_1_alg».proof.Proof.Gen.KernelIdeal.Skeleton
import proofs.«150954_j68676527063484_1_alg».proof.Proof.Gen.KernelIdeal.Launch
import proofs.«150954_j68676527063484_1_alg».proof.Proof.Gen.KernelIdeal.Points
import proofs.«150954_j68676527063484_1_alg».proof.Proof.Gen.KernelIdeal.Frame
import proofs.«150954_j68676527063484_1_alg».proof.Proof.Gen.ReferenceIdeal
import proofs.«150954_j68676527063484_1_alg».proof.Proof.Gen.ReferenceIdeal.Run
import proofs.«150954_j68676527063484_1_alg».proof.Proof.Gen.ReferenceIdeal.Read
import proofs.«150954_j68676527063484_1_alg».proof.Proof.Gen.Pre_finite_inputs
import proofs.«150954_j68676527063484_1_alg».proof.Proof.Join
import Idealize.ShloMosaic.Adequacy
import Idealize.ShloMosaic.Init

noncomputable section

namespace Cert.Proof

open Idealize.ShloMosaic Idealize.SL.Sem Cert.RatingError

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same number: the kernel program at half the
    sum of the tiled row totals plus the regularisation terms, the reference at half the sum of all entry errors plus
    the same terms, and the two sums agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.2.2.1, Cert.ReferenceIdeal.Read.val_main_v43_eq]
  show _ = Cert.KernelIdeal.Final.closing
    (rowTotals (Cert.KernelIdeal.Blocks.aArr m c) (Cert.KernelIdeal.Blocks.vArr m c) (Cert.KernelIdeal.Blocks.rArr m c)) _ _ _
  rw [Cert.KernelIdeal.Blocks.aArr_ideal, Cert.KernelIdeal.Blocks.vArr_ideal, Cert.KernelIdeal.Blocks.rArr_eq]
  exact (Join.result_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
